-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S11000x128 : Shape := ⟨2, ![11000, 128]⟩
abbrev S30000x128 : Shape := ⟨2, ![30000, 128]⟩
abbrev S4000x128 : Shape := ⟨2, ![4000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S11000x128 : S_.BroadcastsInDim S11000x128 (![] : Fin 0 → Fin S11000x128.rank)
  reducesTo_S11000x128_S_d0_1 : S11000x128.ReducesTo [0, 1] S_
  bcast_S_S30000x128 : S_.BroadcastsInDim S30000x128 (![] : Fin 0 → Fin S30000x128.rank)
  reducesTo_S30000x128_S_d0_1 : S30000x128.ReducesTo [0, 1] S_
  bcast_S_S4000x128 : S_.BroadcastsInDim S4000x128 (![] : Fin 0 → Fin S4000x128.rank)
  reducesTo_S4000x128_S_d0_1 : S4000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg8 : IVec S500000 32) (main_v64 : IVec S_ 1) (main_v66 : IVec S500000 1) : IVec S_ 1 :=
  let main_c_27 : IVec S_ 1 := constantI S_ 1 1#1
  let main_v67 : IVec S_ 1 := (fun x v => Host.reduce IntOp.andi x v reducesTo_S500000_S_d0 h_S_) main_v66 main_c_27
  let main_v68 : IVec S_ 1 := andi main_v64 main_v67
  let main_c_28 : IVec S_ 32 := constantI S_ 32 4000#32
  let main_v69 : IVec S500000 32 := broadcastInDim S500000 ![] bcast_S_S500000 main_c_28
  let main_v70 : IVec S500000 1 := cmpi .slt main_arg8 main_v69
  let main_c_29 : IVec S_ 1 := constantI S_ 1 1#1
  let main_v71 : IVec S_ 1 := (fun x v => Host.reduce IntOp.andi x v reducesTo_S500000_S_d0 h_S_) main_v70 main_c_29
  let main_v72 : IVec S_ 1 := andi main_v68 main_v71
  main_v72

def fn_part3 {F : FTy → Type} [FloatOps F] (main_arg4 : IVec S500000 32) (main_arg6 : IVec S500000 32) (main_arg8 : IVec S500000 32) (main_v48 : IVec S_ 1) (main_v50 : IVec S500000 1) : IVec S_ 1 :=
  let main_c_19 : IVec S_ 1 := constantI S_ 1 1#1
  let main_v51 : IVec S_ 1 := (fun x v => Host.reduce IntOp.andi x v reducesTo_S500000_S_d0 h_S_) main_v50 main_c_19
  let main_v52 : IVec S_ 1 := andi main_v48 main_v51
  let main_c_20 : IVec S_ 32 := constantI S_ 32 11000#32
  let main_v53 : IVec S500000 32 := broadcastInDim S500000 ![] bcast_S_S500000 main_c_20
  let main_v54 : IVec S500000 1 := cmpi .slt main_arg4 main_v53
  let main_c_21 : IVec S_ 1 := constantI S_ 1 1#1
  let main_v55 : IVec S_ 1 := (fun x v => Host.reduce IntOp.andi x v reducesTo_S500000_S_d0 h_S_) main_v54 main_c_21
  let main_v56 : IVec S_ 1 := andi main_v52 main_v55
  let main_c_22 : IVec S_ 32 := constantI S_ 32 4294937296#32
  let main_v57 : IVec S500000 32 := broadcastInDim S500000 ![] bcast_S_S500000 main_c_22
  let main_v58 : IVec S500000 1 := cmpi .sge main_arg6 main_v57
  let main_c_23 : IVec S_ 1 := constantI S_ 1 1#1
  let main_v59 : IVec S_ 1 := (fun x v => Host.reduce IntOp.andi x v reducesTo_S500000_S_d0 h_S_) main_v58 main_c_23
  let main_v60 : IVec S_ 1 := andi main_v56 main_v59
  let main_c_24 : IVec S_ 32 := constantI S_ 32 30000#32
  let main_v61 : IVec S500000 32 := broadcastInDim S500000 ![] bcast_S_S500000 main_c_24
  let main_v62 : IVec S500000 1 := cmpi .slt main_arg6 main_v61
  let main_c_25 : IVec S_ 1 := constantI S_ 1 1#1
  let main_v63 : IVec S_ 1 := (fun x v => Host.reduce IntOp.andi x v reducesTo_S500000_S_d0 h_S_) main_v62 main_c_25
  let main_v64 : IVec S_ 1 := andi main_v60 main_v63
  let main_c_26 : IVec S_ 32 := constantI S_ 32 4294963296#32
  let main_v65 : IVec S500000 32 := broadcastInDim S500000 ![] bcast_S_S500000 main_c_26
  let main_v66 : IVec S500000 1 := cmpi .sge main_arg8 main_v65
  fn_part4 (F := F) main_arg8 main_v64 main_v66

def fn_part2 {F : FTy → Type} [FloatOps F] (main_arg4 : IVec S500000 32) (main_arg6 : IVec S500000 32) (main_arg8 : IVec S500000 32) (main_arg13 : FVec F S128 .f32) (main_arg14 : FVec F S128x128 .f32) (main_arg15 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294956296#32
  let main_v49 : IVec S500000 32 := broadcastInDim S500000 ![] bcast_S_S500000 main_c_18
  let main_v50 : IVec S500000 1 := cmpi .sge main_arg4 main_v49
  fn_part3 (F := F) main_arg4 main_arg6 main_arg8 main_v48 main_v50

def fn_part1 {F : FTy → Type} [FloatOps F] (main_arg4 : IVec S500000 32) (main_arg6 : IVec S500000 32) (main_arg8 : IVec S500000 32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S4000x128 1) : IVec S_ 1 :=
  let main_c_5 : IVec S_ 1 := constantI S_ 1 1#1
  let main_v17 : IVec S_ 1 := (fun x v => Host.reduce IntOp.andi x v reducesTo_S4000x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg6 main_arg8 main_arg13 main_arg14 main_arg15 main_v33

def fn {F : FTy → Type} [FloatOps F] (main_arg0 : FVec F S100000x128 .f32) (main_arg1 : FVec F S11000x128 .f32) (main_arg2 : FVec F S30000x128 .f32) (main_arg3 : FVec F S4000x128 .f32) (main_arg4 : IVec S500000 32) (main_arg5 : IVec S500000 32) (main_arg6 : IVec S500000 32) (main_arg7 : IVec S500000 32) (main_arg8 : IVec S500000 32) (main_arg9 : IVec S500000 32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S11000x128 .f32 := Host.absf main_arg1
  let main_cst_0 : FVec F S_ .f32 := constant S_ .f32 0x7F800000#32
  let main_v5 : FVec F S11000x128 .f32 := broadcastInDim S11000x128 ![] bcast_S_S11000x128 main_cst_0
  let main_v6 : IVec S11000x128 1 := cmpf .olt main_v4 main_v5
  let main_c_1 : IVec S_ 1 := constantI S_ 1 1#1
  let main_v7 : IVec S_ 1 := (fun x v => Host.reduce IntOp.andi x v reducesTo_S11000x128_S_d0_1 h_S_) main_v6 main_c_1
  let main_v8 : IVec S_ 1 := andi main_v3 main_v7
  let main_v9 : FVec F S30000x128 .f32 := Host.absf main_arg2
  let main_cst_2 : FVec F S_ .f32 := constant S_ .f32 0x7F800000#32
  let main_v10 : FVec F S30000x128 .f32 := broadcastInDim S30000x128 ![] bcast_S_S30000x128 main_cst_2
  let main_v11 : IVec S30000x128 1 := cmpf .olt main_v9 main_v10
  let main_c_3 : IVec S_ 1 := constantI S_ 1 1#1
  let main_v12 : IVec S_ 1 := (fun x v => Host.reduce IntOp.andi x v reducesTo_S30000x128_S_d0_1 h_S_) main_v11 main_c_3
  let main_v13 : IVec S_ 1 := andi main_v8 main_v12
  let main_v14 : FVec F S4000x128 .f32 := Host.absf main_arg3
  let main_cst_4 : FVec F S_ .f32 := constant S_ .f32 0x7F800000#32
  let main_v15 : FVec F S4000x128 .f32 := broadcastInDim S4000x128 ![] bcast_S_S4000x128 main_cst_4
  let main_v16 : IVec S4000x128 1 := cmpf .olt main_v14 main_v15
  fn_part1 (F := F) main_arg4 main_arg6 main_arg8 main_arg10 main_arg11 main_arg12 main_arg13 main_arg14 main_arg15 main_v13 main_v16
-- ==== Kernel.lean ====
abbrev S100000x128 : Shape := ⟨2, ![100000, 128]⟩
abbrev S11000x128 : Shape := ⟨2, ![11000, 128]⟩
abbrev S30000x128 : Shape := ⟨2, ![30000, 128]⟩
abbrev S4000x128 : Shape := ⟨2, ![4000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S1x128 : Shape := ⟨2, ![1, 128]⟩

abbrev nBuf : Space → Nat
  | .hbm => 98
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S11000x128, .f32⟩
  | .hbm, ⟨2, _⟩ => ⟨S30000x128, .f32⟩
  | .hbm, ⟨3, _⟩ => ⟨S4000x128, .f32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S1, .i32⟩
  | .hbm, ⟨25, _⟩ => ⟨S_, .i32⟩
  | .hbm, ⟨26, _⟩ => ⟨S500000x1, .i32⟩
  | .hbm, ⟨27, _⟩ => ⟨S500000x1, .i1⟩
  | .hbm, ⟨28, _⟩ => ⟨S1x1, .i32⟩
  | .hbm, ⟨29, _⟩ => ⟨S500000x1, .i32⟩
  | .hbm, ⟨30, _⟩ => ⟨S500000x1, .i1⟩
  | .hbm, ⟨31, _⟩ => ⟨S500000x1, .i1⟩
  | .hbm, ⟨32, _⟩ => ⟨S_, .i1⟩
  | .hbm, ⟨33, _⟩ => ⟨S500000, .i1⟩
  | .hbm, ⟨34, _⟩ => ⟨S500000x128, .f32⟩
  | .hbm, ⟨35, _⟩ => ⟨S500000x128, .i1⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S100000x128, .f32⟩
  | .hbm, ⟨41, _⟩ => ⟨S500000x1, .i32⟩
  | .hbm, ⟨42, _⟩ => ⟨S100000x128, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S1, .i32⟩
  | .hbm, ⟨52, _⟩ => ⟨S_, .i32⟩
  | .hbm, ⟨53, _⟩ => ⟨S500000x1, .i32⟩
  | .hbm, ⟨54, _⟩ => ⟨S500000x1, .i1⟩
  | .hbm, ⟨55, _⟩ => ⟨S1x1, .i32⟩
  | .hbm, ⟨56, _⟩ => ⟨S500000x1, .i32⟩
  | .hbm, ⟨57, _⟩ => ⟨S500000x1, .i1⟩
  | .hbm, ⟨58, _⟩ => ⟨S500000x1, .i1⟩
  | .hbm, ⟨59, _⟩ => ⟨S_, .i1⟩
  | .hbm, ⟨60, _⟩ => ⟨S500000, .i1⟩
  | .hbm, ⟨61, _⟩ => ⟨S500000x128, .f32⟩
  | .hbm, ⟨62, _⟩ => ⟨S500000x128, .i1⟩
  | .hbm, ⟨63, _⟩ => ⟨S_, .f32⟩
  | .hbm, ⟨64, _⟩ => ⟨S500000x128, .f32⟩
  | .hbm, ⟨65, _⟩ => ⟨S500000x128, .f32⟩
  | .hbm, ⟨66, _⟩ => ⟨S_, .f32⟩
  | .hbm, ⟨67, _⟩ => ⟨S100000x128, .f32⟩
  | .hbm, ⟨68, _⟩ => ⟨S500000x1, .i32⟩
  | .hbm, ⟨69, _⟩ => ⟨S100000x128, .f32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S1, .i32⟩
  | .hbm, ⟨79, _⟩ => ⟨S_, .i32⟩
  | .hbm, ⟨80, _⟩ => ⟨S500000x1, .i32⟩
  | .hbm, ⟨81, _⟩ => ⟨S500000x1, .i1⟩
  | .hbm, ⟨82, _⟩ => ⟨S1x1, .i32⟩
  | .hbm, ⟨83, _⟩ => ⟨S500000x1, .i32⟩
  | .hbm, ⟨84, _⟩ => ⟨S500000x1, .i1⟩
  | .hbm, ⟨85, _⟩ => ⟨S500000x1, .i1⟩
  | .hbm, ⟨86, _⟩ => ⟨S_, .i1⟩
  | .hbm, ⟨87, _⟩ => ⟨S500000, .i1⟩
  | .hbm, ⟨88, _⟩ => ⟨S500000x128, .f32⟩
  | .hbm, ⟨89, _⟩ => ⟨S500000x128, .i1⟩
  | .hbm, ⟨90, _⟩ => ⟨S_, .f32⟩
  | .hbm, ⟨91, _⟩ => ⟨S500000x128, .f32⟩
  | .hbm, ⟨92, _⟩ => ⟨S500000x128, .f32⟩
  | .hbm, ⟨93, _⟩ => ⟨S_, .f32⟩
  | .hbm, ⟨94, _⟩ => ⟨S100000x128, .f32⟩
  | .hbm, ⟨95, _⟩ => ⟨S500000x1, .i32⟩
  | .hbm, ⟨96, _⟩ => ⟨S100000x128, .f32⟩
  | .hbm, ⟨97, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_cst : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v4 : Ref sig .tc := ⟨.hbm, 65, rfl⟩
abbrev main_cst_0 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v8 : Ref sig .tc := ⟨.hbm, 92, rfl⟩
abbrev main_cst_1 : Ref sig .tc := ⟨.hbm, 93, rfl⟩
abbrev main_v9 : Ref sig .tc := ⟨.hbm, 94, rfl⟩
abbrev main_v10 : Ref sig .tc := ⟨.hbm, 95, rfl⟩
abbrev main_v11 : Ref sig .tc := ⟨.hbm, 96, rfl⟩
abbrev main_v12 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S11000x128_S500000x1_S500000x128_1_0_n_n_0_1_1128_wf : GatherDims.WF S11000x128 S500000x1 S500000x128 [1] [0] [] [0] [] 1 ![1, 128]
  scatter_S100000x128_S500000x1_S500000x128_1_0_0_1_wf : ScatterDims.WF S100000x128 S500000x1 S500000x128 [1] [0] [0] 1
  gather_S30000x128_S500000x1_S500000x128_1_0_n_n_0_1_1128_wf : GatherDims.WF S30000x128 S500000x1 S500000x128 [1] [0] [] [0] [] 1 ![1, 128]
  gather_S4000x128_S500000x1_S500000x128_1_0_n_n_0_1_1128_wf : GatherDims.WF S4000x128 S500000x1 S500000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S11000x128_S500000x1_S500000x128_1_0_n_n_0_1_1128 : GatherDims S11000x128 S500000x1 S500000x128 where
  offsetDims := [1]
  collapsedSliceDims := [0]
  operandBatchingDims := []
  startIndicesBatchingDims := []
  startIndexMap := [0]
  indexVectorDim := 1
  sliceSizes := ![1, 128]
  wf := gather_S11000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def gather_S4000x128_S500000x1_S500000x128_1_0_n_n_0_1_1128 : GatherDims S4000x128 S500000x1 S500000x128 where
  offsetDims := [1]
  collapsedSliceDims := [0]
  operandBatchingDims := []
  startIndicesBatchingDims := []
  startIndexMap := [0]
  indexVectorDim := 1
  sliceSizes := ![1, 128]
  wf := gather_S4000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v3) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S11000x128 : Shape := ⟨2, ![11000, 128]⟩
abbrev S30000x128 : Shape := ⟨2, ![30000, 128]⟩
abbrev S4000x128 : Shape := ⟨2, ![4000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S11000x128, .f32⟩
  | .hbm, ⟨2, _⟩ => ⟨S30000x128, .f32⟩
  | .hbm, ⟨3, _⟩ => ⟨S4000x128, .f32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .f32⟩
  | .hbm, ⟨26, _⟩ => ⟨S100000x128, .f32⟩
  | .hbm, ⟨27, _⟩ => ⟨S500000x1, .i32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S_, .f32⟩
  | .hbm, ⟨46, _⟩ => ⟨S100000x128, .f32⟩
  | .hbm, ⟨47, _⟩ => ⟨S500000x1, .i32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .f32⟩
  | .hbm, ⟨66, _⟩ => ⟨S_, .f32⟩
  | .hbm, ⟨67, _⟩ => ⟨S100000x128, .f32⟩
  | .hbm, ⟨68, _⟩ => ⟨S500000x1, .i32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_cst : Ref sig .tc := ⟨.hbm, 33, rfl⟩
abbrev main_call0_v0 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_cst : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call2_cst : Ref sig .tc := ⟨.hbm, 74, rfl⟩
abbrev main_call2_v0 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S11000x128_S500000x1_S500000x128_1_0_n_n_0_1_1128_wf : GatherDims.WF S11000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  gather_S30000x128_S500000x1_S500000x128_1_0_n_n_0_1_1128_wf : GatherDims.WF S30000x128 S500000x1 S500000x128 [1] [0] [] [0] [] 1 ![1, 128]
  gather_S4000x128_S500000x1_S500000x128_1_0_n_n_0_1_1128_wf : GatherDims.WF S4000x128 S500000x1 S500000x128 [1] [0] [] [0] [] 1 ![1, 128]

variable [Facts₀]

def gather_S11000x128_S500000x1_S500000x128_1_0_n_n_0_1_1128 : GatherDims S11000x128 S500000x1 S500000x128 where
  offsetDims := [1]
  collapsedSliceDims := [0]
  operandBatchingDims := []
  startIndicesBatchingDims := []
  startIndexMap := [0]
  indexVectorDim := 1
  sliceSizes := ![1, 128]
  wf := gather_S11000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def gather_S4000x128_S500000x1_S500000x128_1_0_n_n_0_1_1128 : GatherDims S4000x128 S500000x1 S500000x128 where
  offsetDims := [1]
  collapsedSliceDims := [0]
  operandBatchingDims := []
  startIndicesBatchingDims := []
  startIndexMap := [0]
  indexVectorDim := 1
  sliceSizes := ![1, 128]
  wf := gather_S4000x128_S500000x1_S500000x128_1_0_n_n_0_1_1128_wf

class Facts : Prop extends Facts₀ where

variable [Facts]
-- ==== Proof.PreRange.lean ====
/-
  The index ranges the precondition states.

  Beside the finiteness of the float inputs, the precondition says of each of the three vectors of source indices
  that every entry `s` satisfies `-n ≤ s < n`, signed, where `n` is the number of rows of the table the vector
  indexes: 11000, 30000 and 4000.  The predicate is a chain of conjunctions whose last six members are these tests,
  each the reduction by `and`, over the whole vector, of a comparison of the vector with a broadcast constant.  The
  chain being one, each member is one; and a reduction by `and` that is one met a one at every entry.  The negative
  bounds are the 32-bit words `2³² - n`.
-/
import proofs.«430816_j9457517986563_1_alg».proof.Pre_finite_inputs
import Idealize.ShloMosaic.Lib.ReduceAll
import Idealize.ShloMosaic.Lib.ValueIdx

noncomputable section

namespace Cert.PreRange

open Idealize.ShloMosaic Cert.Pre_finite_inputs Cert.Pre_finite_inputs.Facts

/-- The shape of rank zero has one index. -/
instance : Subsingleton S_.Idx := ⟨fun _ _ => funext fun d => d.elim0⟩

variable {F : FTy → Type} [FloatOps F] [Cert.Pre_finite_inputs.Facts]

/-- Where the precondition holds, every source index lies in `[-n, n)` for its table's row count `n`: the first
    relation's in `[-11000, 11000)`, the second's in `[-30000, 30000)`, the third's in `[-4000, 4000)`. -/
theorem ranges (a0 : FVec F S100000x128 .f32) (a1 : FVec F S11000x128 .f32) (a2 : FVec F S30000x128 .f32)
    (a3 : FVec F S4000x128 .f32) (a4 a5 a6 a7 a8 a9 : IVec S500000 32) (a10 : FVec F S128x128 .f32) (a11 : FVec F S128 .f32)
    (a12 : FVec F S128x128 .f32) (a13 : FVec F S128 .f32) (a14 : FVec F S128x128 .f32) (a15 : FVec F S128 .f32)
    (h : fn (F := F) a0 a1 a2 a3 a4 a5 a6 a7 a8 a9 a10 a11 a12 a13 a14 a15 = fun _ => 1#1) :
    ((∀ i, IntOp.cmpi .sge (a4 i) 4294956296#32 = 1#1) ∧ ∀ i, IntOp.cmpi .slt (a4 i) 11000#32 = 1#1)
    ∧ ((∀ i, IntOp.cmpi .sge (a6 i) 4294937296#32 = 1#1) ∧ ∀ i, IntOp.cmpi .slt (a6 i) 30000#32 = 1#1)
    ∧ ((∀ i, IntOp.cmpi .sge (a8 i) 4294963296#32 = 1#1) ∧ ∀ i, IntOp.cmpi .slt (a8 i) 4000#32 = 1#1) := by
  have e := congrFun h ValueIdx.ix0
  unfold fn fn_part1 fn_part2 fn_part3 fn_part4 at e
  dsimp only at e
  obtain ⟨e5, h6⟩ := IntOp.andi_eq_one.1 e
  obtain ⟨e4, h5⟩ := IntOp.andi_eq_one.1 e5
  obtain ⟨e3, h4⟩ := IntOp.andi_eq_one.1 e4
  obtain ⟨e2, h3⟩ := IntOp.andi_eq_one.1 e3
  obtain ⟨e1, h2⟩ := IntOp.andi_eq_one.1 e2
  obtain ⟨-, h1⟩ := IntOp.andi_eq_one.1 e1
  exact ⟨⟨fun i => Host.reduce_andi_all _ _ _ _ _ h1 i, fun i => Host.reduce_andi_all _ _ _ _ _ h2 i⟩,
    ⟨fun i => Host.reduce_andi_all _ _ _ _ _ h3 i, fun i => Host.reduce_andi_all _ _ _ _ _ h4 i⟩,
    ⟨fun i => Host.reduce_andi_all _ _ _ _ _ h5 i, fun i => Host.reduce_andi_all _ _ _ _ _ h6 i⟩⟩

end Cert.PreRange

end
-- ==== Proof.LibTakeFill.lean ====
/-
  Index arithmetic behind a gather that replaces out-of-range rows by a fill value.

  A row index is a 32-bit word `s`.  A negative index counts from the end, so the word is first wrapped (a negative `s` becomes `s + n`), and the
  wrapped word is then tested against the interval `[0, n - 1]`; a row whose wrapped index fails the test is
  replaced by the fill value.  For `-n ≤ s < n` the wrapped index always lies in `[0, n - 1]`, so both tests
  answer one everywhere, their conjunction reduced along a row is one, and the select under that mask returns
  the gathered rows unchanged.
-/
import Idealize.ShloMosaic.PureOps
import Idealize.ShloMosaic.PureOps.Reduce
import Idealize.ShloMosaic.Lib.Affine
import Idealize.ShloMosaic.Lib.ValueIdx

namespace Cert.TakeFill

open Idealize.ShloMosaic

/-- The sum of a word in `[-n, 0)` and the word `n` does not wrap: read signed it is the sum of the two readings. -/
theorem toInt_add_of_neg (n : Int) (hn0 : 0 < n) (hn1 : n < 2 ^ 30) (N s : BitVec 32) (hN : N.toInt = n)
    (hlo : -n ≤ s.toInt) (hneg : s.toInt < 0) : (s + N).toInt = s.toInt + n := by
  rw [BitVec.toInt_add, hN, Int.bmod_eq_of_le_mul_two (by omega) (by omega)]

/-- The wrapped index of a word in `[-n, n)` lies in `[0, n - 1]`, signed, for `0 < n < 2 ^ 30`: a negative word
    moves up by `n` into `[0, n)`, a nonnegative one stays. -/
theorem wrapped_in_range (n : Int) (hn0 : 0 < n) (hn1 : n < 2 ^ 30) (N negN Nm1 : BitVec 32)
    (hN : N.toInt = n) (hnegN : negN.toInt = -n) (hNm1 : Nm1.toInt = n - 1) (s : BitVec 32)
    (hlo : IntOp.cmpi .sge s negN = 1#1) (hhi : IntOp.cmpi .slt s N = 1#1) :
    IntOp.cmpi .sge (Scalar.select (IntOp.cmpi .slt s 0#32) (IntOp.addi s N) s) 0#32 = 1#1
    ∧ IntOp.cmpi .sle (Scalar.select (IntOp.cmpi .slt s 0#32) (IntOp.addi s N) s) Nm1 = 1#1 := by
  rw [IntOp.cmpi_sge, hnegN] at hlo
  rw [IntOp.cmpi_slt, hN] at hhi
  have h0 : (0#32 : BitVec 32).toInt = 0 := by decide
  by_cases hs : s.toInt < 0
  · have hc : IntOp.cmpi .slt s 0#32 = 1#1 := IntOp.cmpi_slt.2 (by rw [h0]; exact hs)
    have hadd : (IntOp.addi s N).toInt = s.toInt + n := toInt_add_of_neg n hn0 hn1 N s hN hlo hs
    rw [hc, ValueIdx.select_one, IntOp.cmpi_sge, IntOp.cmpi_sle, hadd, h0, hNm1]
    constructor <;> omega
  · have hc : ¬ IntOp.cmpi .slt s 0#32 = 1#1 := fun h => hs (by have := IntOp.cmpi_slt.1 h; rwa [h0] at this)
    rw [ValueIdx.eq_zero_of_ne_one hc, ValueIdx.select_zero, IntOp.cmpi_sge, IntOp.cmpi_sle, h0, hNm1]
    constructor <;> omega

/-- A left fold of `and` from one over words that are all one is one. -/
theorem foldl_andi_ones {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-- A reduction by `and`, from one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose mask is the conjunction of two tests that answer one everywhere, reduced by `and` and then
    broadcast, returns its first operand: the fill value is never chosen. -/
theorem select_of_tests {sc sr sm u : Shape} {axes : List (Fin sc.rank)} {dims : Fin sr.rank → Fin sm.rank}
    (hb : sr.BroadcastsInDim sm dims) (hr : sc.ReducesTo axes sr) (hu : 0 < u.numel)
    (lo hi : IVec sc 1) (init : u.Idx → BitVec 1) {α : Type} (g fill : sm.Idx → α)
    (hlo : ∀ i, lo i = 1#1) (hhi : ∀ i, hi i = 1#1) (hinit : ∀ k, init k = 1#1) :
    select (broadcastInDim sm dims hb (Host.reduce IntOp.andi (andi lo hi) init hr hu)) g fill = g := by
  funext j
  show Scalar.select (Host.reduce IntOp.andi (andi lo hi) init hr hu _) (g j) (fill j) = g j
  rw [reduce_andi_ones _ _ hr hu (fun i => by
    show IntOp.andi (lo i) (hi i) = 1#1
    rw [hlo, hhi]; decide) hinit]
  exact if_pos rfl

end Cert.TakeFill
-- ==== Proof.HostSide.lean ====
/-
  The three aggregated arrays as the kernel's host operations leave them for the region.

  Before the region the program computes, for each relation, the rows of the source table gathered at the source
  indices and then scatter-added into zeros at the destination indices.  The gather wraps a negative index (`s` becomes
  `s + n` for a table of `n` rows), tests the wrapped index against `[0, n - 1]`, gathers, and replaces the rows whose
  test failed by a fill value.  Where every source index lies in `[-n, n)` the wrapped index always passes the test, the
  fill is never chosen, and the aggregated array is the scatter-add of the plainly gathered rows.

  The operations come in six stretches (gather, scatter-add; three times).  The buffer contents after all of them are the
  stretches applied one after the other; a buffer is read off the stretch that writes it, and the stretches that do
  not write it leave it alone.
-/
import proofs.«430816_j9457517986563_1_alg».proof.Proof.Gen.KernelIdeal.Frame
import proofs.«430816_j9457517986563_1_alg».proof.Proof.LibTakeFill
import Idealize.ShloMosaic.Lib.StableHlo.Run
import Idealize.ShloMosaic.Lib.StableHlo.RunLoop

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-! ## The wrapped index column and the range test -/

/-- The source indices with the negative ones moved up by the table's row count `n`, as a column. -/
def wrapped (n : BitVec 32) (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 n))) s)

/-- The mask of the rows whose index column lies in `[0, n - 1]`, laid along the 128 columns. -/
def inRange (nm1 : BitVec 32) (idx : IVec S500000x1 32) : IVec S500000x128 1 :=
  broadcastInDim S500000x128 ![0] bcast_S500000_S500000x128_0
    (Host.reduce IntOp.andi
      (andi (cmpi .sge idx (broadcastInDim S500000x1 ![] bcast_S_S500000x1 (constantI S_ 32 0#32)))
        (cmpi .sle idx (broadcastInDim S500000x1 ![0, 1] bcast_S1x1_S500000x1_0_1 (broadcastInDim S1x1 ![1] bcast_S1_S1x1_1 (constantI S1 32 nm1)))))
      (constantI S_ 1 1#1) reducesTo_S500000x1_S500000_d1 h_S_)

/-- Where every source index lies in `[-n, n)` the range test passes everywhere, and the select under its mask returns
    the gathered rows: the fill is never chosen. -/
theorem fill_never {α : Type} (k : Int) (hk0 : 0 < k) (hk1 : k < 2 ^ 30) (n negn nm1 : BitVec 32) (hn : n.toInt = k)
    (hnegn : negn.toInt = -k) (hnm1 : nm1.toInt = k - 1) (s : IVec S500000 32)
    (hlo : ∀ i, IntOp.cmpi .sge (s i) negn = 1#1) (hhi : ∀ i, IntOp.cmpi .slt (s i) n = 1#1) (g fill : S500000x128.Idx → α) :
    select (inRange nm1 (wrapped n s)) g fill = g := by
  unfold inRange
  refine Cert.TakeFill.select_of_tests bcast_S500000_S500000x128_0 reducesTo_S500000x1_S500000_d1 h_S_ _ _ _ g fill
    (fun i => ?_) (fun i => ?_) (fun _ => rfl)
  · exact (Cert.TakeFill.wrapped_in_range k hk0 hk1 n negn nm1 hn hnegn hnm1 (s _) (hlo _) (hhi _)).1
  · exact (Cert.TakeFill.wrapped_in_range k hk0 hk1 n negn nm1 hn hnegn hnm1 (s _) (hlo _) (hhi _)).2

/-! ## Contents at a buffer's own type

A typed reference carries its buffer's type as an equation, and contents pass between the two spellings of that type
along it.  Passing there and back is the identity; and for a literal reference, whose equation holds by computation,
each passage alone is the identity. -/

theorem ofBuf_toBuf {T : BufTy} (x : StableHlo.TRef sig T) (v : T.Contents (Elt F)) : x.ofBuf (x.toBuf v) = v := by
  obtain ⟨r, h, h2, h3⟩ := x
  subst h
  rfl

theorem toBuf_v0 (X : (⟨S500000x128, .f32⟩ : BufTy).Contents (Elt F)) :
    (StableHlo.TRef.of main_v0 : StableHlo.TRef sig ⟨S500000x128, .f32⟩).toBuf X = X := rfl
theorem toBuf_v4 (X : (⟨S500000x128, .f32⟩ : BufTy).Contents (Elt F)) :
    (StableHlo.TRef.of main_v4 : StableHlo.TRef sig ⟨S500000x128, .f32⟩).toBuf X = X := rfl
theorem toBuf_v8 (X : (⟨S500000x128, .f32⟩ : BufTy).Contents (Elt F)) :
    (StableHlo.TRef.of main_v8 : StableHlo.TRef sig ⟨S500000x128, .f32⟩).toBuf X = X := rfl
theorem ofBuf_arg1 (X : main_arg1.ty.Contents (Elt F)) :
    (StableHlo.TRef.of main_arg1 : StableHlo.TRef sig ⟨S11000x128, .f32⟩).ofBuf X = X := rfl
theorem ofBuf_arg2 (X : main_arg2.ty.Contents (Elt F)) :
    (StableHlo.TRef.of main_arg2 : StableHlo.TRef sig ⟨S30000x128, .f32⟩).ofBuf X = X := rfl
theorem ofBuf_arg3 (X : main_arg3.ty.Contents (Elt F)) :
    (StableHlo.TRef.of main_arg3 : StableHlo.TRef sig ⟨S4000x128, .f32⟩).ofBuf X = X := rfl
theorem ofBuf_arg4 (X : main_arg4.ty.Contents (Elt F)) :
    (StableHlo.TRef.of main_arg4 : StableHlo.TRef sig ⟨S500000, .i32⟩).ofBuf X = X := rfl
theorem ofBuf_arg6 (X : main_arg6.ty.Contents (Elt F)) :
    (StableHlo.TRef.of main_arg6 : StableHlo.TRef sig ⟨S500000, .i32⟩).ofBuf X = X := rfl
theorem ofBuf_arg8 (X : main_arg8.ty.Contents (Elt F)) :
    (StableHlo.TRef.of main_arg8 : StableHlo.TRef sig ⟨S500000, .i32⟩).ofBuf X = X := rfl

/-! ## One stretch at a time, from any earlier contents -/

/-- Relation 1's gather with its out-of-range rows filled, as its stretch computes it from any earlier contents. -/
theorem take1 (W : Valuation τ sig (Elt F)) :
    after hostOps0 W (Proc.devRef .tc main_v0)
      = (select (inRange 10999#32 (wrapped 11000#32 (W (Proc.devRef .tc main_arg4))))
          (Host.gather gather_S11000x128_S500000x1_S500000x128_1_0_n_n_0_1_1128 (W (Proc.devRef .tc main_arg1)) (wrapped 11000#32 (W (Proc.devRef .tc main_arg4))))
          (broadcastInDim S500000x128 ![] bcast_S_S500000x128 (constant S_ .f32 0x7FC00000#32)) : (⟨S500000x128, .f32⟩ : BufTy).Contents (Elt F)) := by
  dsimp only [hostOps0]
  after_results_simp
  simp only [ofBuf_toBuf, toBuf_v0, ofBuf_arg1, ofBuf_arg4]
  rfl

/-- Relation 1's gathered rows scatter-added into zeros, as its stretch computes it from any earlier contents. -/
theorem scat1 (W : Valuation τ sig (Elt F)) :
    after hostOps0_1 W (Proc.devRef .tc main_v3)
      = (Host.scatterAdd scatter_S100000x128_S500000x1_S500000x128_1_0_0_1
          (broadcastInDim S100000x128 ![] bcast_S_S100000x128 (constant S_ .f32 0x00000000#32))
          (broadcastInDim S500000x1 ![0] bcast_S500000_S500000x1_0 (W (Proc.devRef .tc main_arg5)))
          (W (Proc.devRef .tc main_v0)) : (⟨S100000x128, .f32⟩ : BufTy).Contents (Elt F)) := by
  dsimp only [hostOps0_1]
  after_results

/-- Relation 2's gather with its out-of-range rows filled. -/
theorem take2 (W : Valuation τ sig (Elt F)) :
    after hostOps0_2 W (Proc.devRef .tc main_v4)
      = (select (inRange 29999#32 (wrapped 30000#32 (W (Proc.devRef .tc main_arg6))))
          (Host.gather gather_S30000x128_S500000x1_S500000x128_1_0_n_n_0_1_1128 (W (Proc.devRef .tc main_arg2)) (wrapped 30000#32 (W (Proc.devRef .tc main_arg6))))
          (broadcastInDim S500000x128 ![] bcast_S_S500000x128 (constant S_ .f32 0x7FC00000#32)) : (⟨S500000x128, .f32⟩ : BufTy).Contents (Elt F)) := by
  dsimp only [hostOps0_2]
  after_results_simp
  simp only [ofBuf_toBuf, toBuf_v4, ofBuf_arg2, ofBuf_arg6]
  rfl

/-- Relation 2's gathered rows scatter-added into zeros. -/
theorem scat2 (W : Valuation τ sig (Elt F)) :
    after hostOps0_3 W (Proc.devRef .tc main_v7)
      = (Host.scatterAdd scatter_S100000x128_S500000x1_S500000x128_1_0_0_1
          (broadcastInDim S100000x128 ![] bcast_S_S100000x128 (constant S_ .f32 0x00000000#32))
          (broadcastInDim S500000x1 ![0] bcast_S500000_S500000x1_0 (W (Proc.devRef .tc main_arg7)))
          (W (Proc.devRef .tc main_v4)) : (⟨S100000x128, .f32⟩ : BufTy).Contents (Elt F)) := by
  dsimp only [hostOps0_3]
  after_results

/-- Relation 3's gather with its out-of-range rows filled. -/
theorem take3 (W : Valuation τ sig (Elt F)) :
    after hostOps0_4 W (Proc.devRef .tc main_v8)
      = (select (inRange 3999#32 (wrapped 4000#32 (W (Proc.devRef .tc main_arg8))))
          (Host.gather gather_S4000x128_S500000x1_S500000x128_1_0_n_n_0_1_1128 (W (Proc.devRef .tc main_arg3)) (wrapped 4000#32 (W (Proc.devRef .tc main_arg8))))
          (broadcastInDim S500000x128 ![] bcast_S_S500000x128 (constant S_ .f32 0x7FC00000#32)) : (⟨S500000x128, .f32⟩ : BufTy).Contents (Elt F)) := by
  dsimp only [hostOps0_4]
  after_results_simp
  simp only [ofBuf_toBuf, toBuf_v8, ofBuf_arg3, ofBuf_arg8]
  rfl

/-- Relation 3's gathered rows scatter-added into zeros. -/
theorem scat3 (W : Valuation τ sig (Elt F)) :
    after hostOps0_5 W (Proc.devRef .tc main_v11)
      = (Host.scatterAdd scatter_S100000x128_S500000x1_S500000x128_1_0_0_1
          (broadcastInDim S100000x128 ![] bcast_S_S100000x128 (constant S_ .f32 0x00000000#32))
          (broadcastInDim S500000x1 ![0] bcast_S500000_S500000x1_0 (W (Proc.devRef .tc main_arg9)))
          (W (Proc.devRef .tc main_v8)) : (⟨S100000x128, .f32⟩ : BufTy).Contents (Elt F)) := by
  dsimp only [hostOps0_5]
  after_results

/-- A stretch leaves alone the buffers none of its operations writes. -/
theorem keep (ops : List (HloOp τ sig (Elt F))) (r : Ref sig .tc) (W : Valuation τ sig (Elt F))
    (h : ∀ op ∈ ops, Proc.devRef (τ := τ) .tc r ∉ op.writes) : after ops W (Proc.devRef .tc r) = W (Proc.devRef .tc r) :=
  after_of_forall_not_mem ops W h

/-- No operation of the stretch at hand writes the buffer at hand: each operation writes one buffer, and it is another. -/
local macro "unwritten" : tactic => `(tactic| exact List.forall_iff_forall_mem.mp (by
    simp only [hostOps0, hostOps0_1, hostOps0_2, hostOps0_3, hostOps0_4, hostOps0_5, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

variable (m : (ℓ : Loc nD τ sig) → Buf (Elt F) ℓ)

/-- The contents the region finds are the six stretches applied in order to the launch contents. -/
theorem split (c : Dev nD) (b : Ref sig .tc) :
    V m c b = after hostOps0_5 (after hostOps0_4 (after hostOps0_3 (after hostOps0_2 (after hostOps0_1
      (after hostOps0 (fun b => m (c, b))))))) (Proc.devRef .tc b) := by
  show StableHlo.after (List.flatten [hostOps0, hostOps0_1, hostOps0_2, hostOps0_3, hostOps0_4, hostOps0_5]) (fun b => m (c, b)) _ = _
  rw [← StableHlo.afterL_eq_after_flatten]
  rfl

/-! ## The aggregated arrays -/

/-- Relation 1: with the source indices in `[-11000, 11000)`, the region finds the scatter-add, at the destination
    indices, of the table's rows gathered at the wrapped source indices. -/
theorem agg1 (c : Dev nD)
    (hlo : ∀ i, IntOp.cmpi .sge (m ((c : Thread nD τ).loc main_arg4) i) 4294956296#32 = 1#1)
    (hhi : ∀ i, IntOp.cmpi .slt (m ((c : Thread nD τ).loc main_arg4) i) 11000#32 = 1#1) :
    V m c main_v3 = Host.scatterAdd scatter_S100000x128_S500000x1_S500000x128_1_0_0_1
      (broadcastInDim S100000x128 ![] bcast_S_S100000x128 (constant S_ .f32 0x00000000#32))
      (broadcastInDim S500000x1 ![0] bcast_S500000_S500000x1_0 (m ((c : Thread nD τ).loc main_arg5)))
      (Host.gather gather_S11000x128_S500000x1_S500000x128_1_0_n_n_0_1_1128 (m ((c : Thread nD τ).loc main_arg1)) (wrapped 11000#32 (m ((c : Thread nD τ).loc main_arg4)))) := by
  rw [split m c main_v3, keep hostOps0_5 main_v3 _ (by unwritten), keep hostOps0_4 main_v3 _ (by unwritten),
    keep hostOps0_3 main_v3 _ (by unwritten), keep hostOps0_2 main_v3 _ (by unwritten), scat1,
    keep hostOps0 main_arg5 _ (by unwritten), take1]
  exact congrArg _ (fill_never 11000 (by decide) (by decide) 11000#32 4294956296#32 10999#32 (by decide) (by decide) (by decide) _ hlo hhi _ _)

/-- Relation 2: with the source indices in `[-30000, 30000)`. -/
theorem agg2 (c : Dev nD)
    (hlo : ∀ i, IntOp.cmpi .sge (m ((c : Thread nD τ).loc main_arg6) i) 4294937296#32 = 1#1)
    (hhi : ∀ i, IntOp.cmpi .slt (m ((c : Thread nD τ).loc main_arg6) i) 30000#32 = 1#1) :
    V m c main_v7 = Host.scatterAdd scatter_S100000x128_S500000x1_S500000x128_1_0_0_1
      (broadcastInDim S100000x128 ![] bcast_S_S100000x128 (constant S_ .f32 0x00000000#32))
      (broadcastInDim S500000x1 ![0] bcast_S500000_S500000x1_0 (m ((c : Thread nD τ).loc main_arg7)))
      (Host.gather gather_S30000x128_S500000x1_S500000x128_1_0_n_n_0_1_1128 (m ((c : Thread nD τ).loc main_arg2)) (wrapped 30000#32 (m ((c : Thread nD τ).loc main_arg6)))) := by
  rw [split m c main_v7, keep hostOps0_5 main_v7 _ (by unwritten), keep hostOps0_4 main_v7 _ (by unwritten), scat2,
    keep hostOps0_2 main_arg7 _ (by unwritten), keep hostOps0_1 main_arg7 _ (by unwritten), keep hostOps0 main_arg7 _ (by unwritten),
    take2, keep hostOps0_1 main_arg6 _ (by unwritten), keep hostOps0 main_arg6 _ (by unwritten),
    keep hostOps0_1 main_arg2 _ (by unwritten), keep hostOps0 main_arg2 _ (by unwritten)]
  exact congrArg _ (fill_never 30000 (by decide) (by decide) 30000#32 4294937296#32 29999#32 (by decide) (by decide) (by decide) _ hlo hhi _ _)

/-- Relation 3: with the source indices in `[-4000, 4000)`. -/
theorem agg3 (c : Dev nD)
    (hlo : ∀ i, IntOp.cmpi .sge (m ((c : Thread nD τ).loc main_arg8) i) 4294963296#32 = 1#1)
    (hhi : ∀ i, IntOp.cmpi .slt (m ((c : Thread nD τ).loc main_arg8) i) 4000#32 = 1#1) :
    V m c main_v11 = Host.scatterAdd scatter_S100000x128_S500000x1_S500000x128_1_0_0_1
      (broadcastInDim S100000x128 ![] bcast_S_S100000x128 (constant S_ .f32 0x00000000#32))
      (broadcastInDim S500000x1 ![0] bcast_S500000_S500000x1_0 (m ((c : Thread nD τ).loc main_arg9)))
      (Host.gather gather_S4000x128_S500000x1_S500000x128_1_0_n_n_0_1_1128 (m ((c : Thread nD τ).loc main_arg3)) (wrapped 4000#32 (m ((c : Thread nD τ).loc main_arg8)))) := by
  rw [split m c main_v11, scat3,
    keep hostOps0_4 main_arg9 _ (by unwritten), keep hostOps0_3 main_arg9 _ (by unwritten), keep hostOps0_2 main_arg9 _ (by unwritten),
    keep hostOps0_1 main_arg9 _ (by unwritten), keep hostOps0 main_arg9 _ (by unwritten), take3,
    keep hostOps0_3 main_arg8 _ (by unwritten), keep hostOps0_2 main_arg8 _ (by unwritten), keep hostOps0_1 main_arg8 _ (by unwritten),
    keep hostOps0 main_arg8 _ (by unwritten),
    keep hostOps0_3 main_arg3 _ (by unwritten), keep hostOps0_2 main_arg3 _ (by unwritten), keep hostOps0_1 main_arg3 _ (by unwritten),
    keep hostOps0 main_arg3 _ (by unwritten)]
  exact congrArg _ (fill_never 4000 (by decide) (by decide) 4000#32 4294963296#32 3999#32 (by decide) (by decide) (by decide) _ hlo hhi _ _)

end Cert.KernelIdeal.HostSide

end
-- ==== Proof.Spec.lean ====
/-
  What both programs compute, as one function of the aggregated features.

  For one relation, with `A` the [rows × 128] array of aggregated source features, `W` the [128 × 128] weight matrix
  and `b` the bias vector, the layer's value at row `r` and column `q` is
      max (∑ₖ A(r, k) · W(k, q) + b(q), 0),
  a product of matrices, a bias added along the rows, and a rectifier.  The result is the sum of the three
  relations' layers, associated to the left: (L₁ + L₂) + L₃.  Everything is over the extended reals; no law beyond
  congruence is used, so no finiteness is needed.

  The number of rows is a parameter: the same formula describes one block of rows and the whole array, and a block's
  value is the array's value at the rows the block holds (`layer_congr`).
-/
import Idealize.ShloMosaic.PureOps.Ideal
import Idealize.ShloMosaic.Lib.ValueIdx

noncomputable section

namespace Cert.Spec

open Idealize.ShloMosaic Idealize.ShloMosaic.ValueIdx

/-- One relation's layer at row `r`, column `q`: the row of `A` against the column of `W`, plus the bias, rectified. -/
def layer {n : Nat} (A : (⟨2, ![n, 128]⟩ : Shape).Idx → EReal) (W : (⟨2, ![128, 128]⟩ : Shape).Idx → EReal)
    (b : (⟨1, ![128]⟩ : Shape).Idx → EReal) (r : Fin n) (q : Fin 128) : EReal :=
  max ((∑ k : Fin 128, A (ix2 r k) * W (ix2 k q)) + b (ix1 q)) (Ideal.ofBits .f32 0x00000000#32)

/-- The layer's value at a row depends on `A` through that row only: if row `p` of `x` is row `r` of `A`, the two
    layers agree there. -/
theorem layer_congr {n n' : Nat} (x : (⟨2, ![n, 128]⟩ : Shape).Idx → EReal) (A : (⟨2, ![n', 128]⟩ : Shape).Idx → EReal)
    (W W' : (⟨2, ![128, 128]⟩ : Shape).Idx → EReal) (b b' : (⟨1, ![128]⟩ : Shape).Idx → EReal) (p : Fin n) (r : Fin n')
    (q : Fin 128) (hx : ∀ k : Fin 128, x (ix2 p k) = A (ix2 r k)) (hW : W = W') (hb : b = b') :
    layer x W b p q = layer A W' b' r q := by
  subst hW hb
  unfold layer
  rw [Finset.sum_congr rfl fun k _ => by rw [hx k]]

/-- The three relations' layers summed, at every index of the [rows × 128] result. -/
def fused {n : Nat} (A1 : (⟨2, ![n, 128]⟩ : Shape).Idx → EReal) (W1 : (⟨2, ![128, 128]⟩ : Shape).Idx → EReal) (b1 : (⟨1, ![128]⟩ : Shape).Idx → EReal)
    (A2 : (⟨2, ![n, 128]⟩ : Shape).Idx → EReal) (W2 : (⟨2, ![128, 128]⟩ : Shape).Idx → EReal) (b2 : (⟨1, ![128]⟩ : Shape).Idx → EReal)
    (A3 : (⟨2, ![n, 128]⟩ : Shape).Idx → EReal) (W3 : (⟨2, ![128, 128]⟩ : Shape).Idx → EReal) (b3 : (⟨1, ![128]⟩ : Shape).Idx → EReal) :
    (⟨2, ![n, 128]⟩ : Shape).Idx → EReal :=
  fun i => (layer A1 W1 b1 (i 0) (i 1) + layer A2 W2 b2 (i 0) (i 1)) + layer A3 W3 b3 (i 0) (i 1)

end Cert.Spec

end
-- ==== Proof.Payload.lean ====
/-
  The kernel body's one store, read at an index.

  On a block of 4000 rows the body forms, for each of the three relations, the product of the block of aggregated
  features with the whole weight matrix (both first narrowed to bf16, which over the extended reals changes nothing,
  accumulated into zero), adds the bias laid along the rows, and rectifies; it then adds the three.  Read at row `p`,
  column `q` of the block this is `(L₁ + L₂) + L₃` with `Lᵢ = Spec.layer` of relation `i`'s block: the matrix product
  becomes the sum over the contracted axis, the bias vector cast to a one-row array and broadcast down the rows reads
  the vector at `q`, and the cast of the block to its own shape is the identity.
-/
import proofs.«430816_j9457517986563_1_alg».proof.Proof.Gen.KernelIdeal.Skeleton
import proofs.«430816_j9457517986563_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Facts₀ Idealize.ShloMosaic Idealize.ShloMosaic.ValueIdx

/-! ## The block product's operand indices: row `i 0` of the left operand and column `i 1` of the right, at the
contracted coordinate -/

theorem lhs_blk_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block's matrix product into a zero accumulator, at row `p` and column `q`, is the sum over the 128
    contracted coordinates of the left operand's row entry times the right operand's column entry. -/
theorem matmul_blk_apply (x : FVec Ideal S4000x128 .bf16) (w : FVec Ideal S128x128 .bf16) (p : Fin 4000) (q : Fin 128) :
    matmul dot_S4000x128_S128x128_S4000x128_1_0_0_1_n_n none x w (constant S4000x128 .f32 0x00000000#32) (ix2 p q)
      = ∑ k : Fin 128, x (ix2 p k) * w (ix2 k q) := by
  show FloatOps.matmul dot_S4000x128_S128x128_S4000x128_1_0_0_1_n_n none x w (constant S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- One relation's part of the body, at row `p` and column `q` of the block, is that relation's layer there. -/
theorem rel_apply (x : Vec Ideal S4000x128 .f32) (w : Vec Ideal S128x128 .f32) (b : Vec Ideal S128 .f32) (p : Fin 4000) (q : Fin 128) :
    maximumf (F := Ideal) (addf (matmul dot_S4000x128_S128x128_S4000x128_1_0_0_1_n_n none
        (truncf .bf16 (shapeCast S4000x128 x shapeCasts_S4000x128_S4000x128) bitsLt_bf16_f32) (truncf .bf16 w bitsLt_bf16_f32)
        (constant S4000x128 .f32 0x00000000#32))
      (broadcastTo S4000x128 (shapeCast S1x128 b shapeCasts_S128_S1x128) broadcasts_S1x128_S4000x128))
      (broadcast S4000x128 (Scalar.ofBits .f32 0x00000000#32)) (ix2 p q)
    = Cert.Spec.layer x w b p q := by
  rw [maximumf_apply, addf_apply, broadcast_apply, shapeCast_self, matmul_blk_apply, broadcastTo_1b_ab_apply, shapeCast_a_1a_apply]
  rfl

/-- The body's stored value at row `p`, column `q` of the block: the three relations' layers of the loaded blocks,
    summed in the order the body adds them. -/
theorem pay_apply (x0 : Vec Ideal S4000x128 .f32) (w0 : Vec Ideal S128x128 .f32) (b0 : Vec Ideal S128 .f32)
    (x1 : Vec Ideal S4000x128 .f32) (w1 : Vec Ideal S128x128 .f32) (b1 : Vec Ideal S128 .f32)
    (x2 : Vec Ideal S4000x128 .f32) (w2 : Vec Ideal S128x128 .f32) (b2 : Vec Ideal S128 .f32) (p : Fin 4000) (q : Fin 128) :
    Gen.k0_pay1 (F := Ideal) x0 w0 b0 x1 w1 b1 x2 w2 b2 (ix2 p q)
      = (Cert.Spec.layer x0 w0 b0 p q + Cert.Spec.layer x1 w1 b1 p q) + Cert.Spec.layer x2 w2 b2 p q := by
  unfold Gen.k0_pay1
  rw [addf_apply, addf_apply, rel_apply, rel_apply, rel_apply]

end Cert.KernelIdeal.Block

end
-- ==== Proof.Whole.lean ====
/-
  From the blocks the grid points write to the whole result array.

  The grid has 25 points.  Point `t` is handed rows `4000·t … 4000·t + 3999` of each of the three aggregated arrays, the
  three weight matrices and the three bias vectors whole, and writes back rows `4000·t … 4000·t + 3999` of the result.
  By the body's value at an index (the sum of the three layers of the loaded blocks) and because a layer's value at a
  row depends on the aggregated array through that row only, what point `t` writes back is block `t` of ONE array: the
  fused function of the aggregated arrays as the region finds them.  Row `r` lies in the block of point `r / 4000`, so the
  25 blocks cover the array, and after the run the result array is that function.
-/
import proofs.«430816_j9457517986563_1_alg».proof.Proof.Gen.KernelIdeal.Value
import proofs.«430816_j9457517986563_1_alg».proof.Proof.Payload
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, and the blocks a point is handed -/

/-- The aggregated array of relation 1, 2, 3 as the region finds it. -/
abbrev agg1 (c : Dev nD) : Vec Ideal S100000x128 .f32 := V m c main_v3
abbrev agg2 (c : Dev nD) : Vec Ideal S100000x128 .f32 := V m c main_v7
abbrev agg3 (c : Dev nD) : Vec Ideal S100000x128 .f32 := V m c main_v11
/-- The weights and biases as the region finds them. -/
abbrev wt1 (c : Dev nD) : Vec Ideal S128x128 .f32 := V m c main_arg10
abbrev bs1 (c : Dev nD) : Vec Ideal S128 .f32 := V m c main_arg11
abbrev wt2 (c : Dev nD) : Vec Ideal S128x128 .f32 := V m c main_arg12
abbrev bs2 (c : Dev nD) : Vec Ideal S128 .f32 := V m c main_arg13
abbrev wt3 (c : Dev nD) : Vec Ideal S128x128 .f32 := V m c main_arg14
abbrev bs3 (c : Dev nD) : Vec Ideal S128 .f32 := V m c main_arg15

/-- The result: the fused function of the nine arrays, over all 100000 rows. -/
abbrev whole (c : Dev nD) : Vec Ideal S100000x128 .f32 :=
  Cert.Spec.fused (n := 100000) (agg1 m c) (wt1 m c) (bs1 m c) (agg2 m c) (wt2 m c) (bs2 m c) (agg3 m c) (wt3 m c) (bs3 m c)

/-- The blocks point `t` is handed. -/
abbrev xb1 (c : Dev nD) (t : Fin cfg0.N) : Vec Ideal S4000x128 .f32 := iblk m c 0 t
abbrev xb2 (c : Dev nD) (t : Fin cfg0.N) : Vec Ideal S4000x128 .f32 := iblk m c 1 t
abbrev xb3 (c : Dev nD) (t : Fin cfg0.N) : Vec Ideal S4000x128 .f32 := iblk m c 2 t
abbrev wb1 (c : Dev nD) (t : Fin cfg0.N) : Vec Ideal S128x128 .f32 := iblk m c 3 t
abbrev bb1 (c : Dev nD) (t : Fin cfg0.N) : Vec Ideal S128 .f32 := iblk m c 4 t
abbrev wb2 (c : Dev nD) (t : Fin cfg0.N) : Vec Ideal S128x128 .f32 := iblk m c 5 t
abbrev bb2 (c : Dev nD) (t : Fin cfg0.N) : Vec Ideal S128 .f32 := iblk m c 6 t
abbrev wb3 (c : Dev nD) (t : Fin cfg0.N) : Vec Ideal S128x128 .f32 := iblk m c 7 t
abbrev bb3 (c : Dev nD) (t : Fin cfg0.N) : Vec Ideal S128 .f32 := iblk m c 8 t

theorem off2 : (![0, 0] : Fin 2 → Nat) = fun _ => 0 := funext fun a => by fin_cases a <;> rfl
theorem off1 : (![0] : Fin 1 → Nat) = fun _ => 0 := funext fun a => by fin_cases a; rfl

/-- The block index of every window at every point, decided over the 25 points: the row windows and the output sit at
    block `(t, 0)`, the weights at `(0, 0)`, the biases at `0`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) :=
  (by decide +kernel : ∀ t : Fin grid0.N, _)

/-- Row `p` of point `t`'s block is row `4000·t + p` of the array. -/
def row (t : Fin cfg0.N) (p : Fin 4000) : Fin 100000 :=
  ⟨4000 * t.val + p.val, by have ht : t.val < 25 := Nat.lt_of_lt_of_eq t.isLt N_0
                            have hp := p.isLt; omega⟩

/-! ## Reading a block of an array

Each read is stated for an arbitrary array `X` in the window's place: which rows and columns a block holds is a fact about
the window's index map alone, whatever the array holds. -/

/-- Row `p`, column `k` of a row window's block at point `t` is row `4000·t + p`, column `k` of its array. -/
theorem rows1_read (t : Fin cfg0.N) (X : S100000x128.Idx → EReal) (p : Fin 4000) (k : Fin 128) :
    ((cfg0.win 0).blk t).view.read (Elt Ideal) X (ix2 p k) = X (ix2 (row t p) k) := by
  obtain ⟨⟨e0, e1⟩, -⟩ := idx_facts t
  show X (((cfg0.win 0).blk t).view.emb (ix2 p k)) = X (ix2 (row t p) k)
  refine congrArg X (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * k.val = k.val; omega
theorem rows2_read (t : Fin cfg0.N) (X : S100000x128.Idx → EReal) (p : Fin 4000) (k : Fin 128) :
    ((cfg0.win 1).blk t).view.read (Elt Ideal) X (ix2 p k) = X (ix2 (row t p) k) := by
  obtain ⟨-, ⟨e0, e1⟩, -⟩ := idx_facts t
  show X (((cfg0.win 1).blk t).view.emb (ix2 p k)) = X (ix2 (row t p) k)
  refine congrArg X (funext fun a => Fin.ext ?_)
  match a with
  | ⟨0, _⟩ => show win0_1.index t (0 : Fin 2) * 4000 + 1 * p.val = 4000 * t.val + p.val; omega
  | ⟨1, _⟩ => show win0_1.index t (1 : Fin 2) * 128 + 1 * k.val = k.val; omega
theorem rows3_read (t : Fin cfg0.N) (X : S100000x128.Idx → EReal) (p : Fin 4000) (k : Fin 128) :
    ((cfg0.win 2).blk t).view.read (Elt Ideal) X (ix2 p k) = X (ix2 (row t p) k) := by
  obtain ⟨-, -, ⟨e0, e1⟩, -⟩ := idx_facts t
  show X (((cfg0.win 2).blk t).view.emb (ix2 p k)) = X (ix2 (row t p) k)
  refine congrArg X (funext fun a => Fin.ext ?_)
  match a with
  | ⟨0, _⟩ => show win0_2.index t (0 : Fin 2) * 4000 + 1 * p.val = 4000 * t.val + p.val; omega
  | ⟨1, _⟩ => show win0_2.index t (1 : Fin 2) * 128 + 1 * k.val = k.val; omega

/-- A weight window's block is its whole matrix, a bias window's its whole vector, at every point. -/
theorem wt1_read (t : Fin cfg0.N) (X : S128x128.Idx → EReal) : ((cfg0.win 3).blk t).view.read (Elt Ideal) X = X := by
  obtain ⟨-, -, -, ⟨e0, e1⟩, -⟩ := idx_facts t
  funext y
  show X (((cfg0.win 3).blk t).view.emb y) = X y
  refine congrArg X (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem bs1_read (t : Fin cfg0.N) (X : S128.Idx → EReal) : ((cfg0.win 4).blk t).view.read (Elt Ideal) X = X := by
  obtain ⟨-, -, -, -, e0, -⟩ := idx_facts t
  funext y
  show X (((cfg0.win 4).blk t).view.emb y) = X y
  refine congrArg X (funext fun a => Fin.ext ?_)
  match a with
  | ⟨0, _⟩ => show win0_4.index t (0 : Fin 1) * 128 + 1 * (y 0).val = (y 0).val; omega
theorem wt2_read (t : Fin cfg0.N) (X : S128x128.Idx → EReal) : ((cfg0.win 5).blk t).view.read (Elt Ideal) X = X := by
  obtain ⟨-, -, -, -, -, ⟨e0, e1⟩, -⟩ := idx_facts t
  funext y
  show X (((cfg0.win 5).blk t).view.emb y) = X y
  refine congrArg X (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem bs2_read (t : Fin cfg0.N) (X : S128.Idx → EReal) : ((cfg0.win 6).blk t).view.read (Elt Ideal) X = X := by
  obtain ⟨-, -, -, -, -, -, e0, -⟩ := idx_facts t
  funext y
  show X (((cfg0.win 6).blk t).view.emb y) = X y
  refine congrArg X (funext fun a => Fin.ext ?_)
  match a with
  | ⟨0, _⟩ => show win0_6.index t (0 : Fin 1) * 128 + 1 * (y 0).val = (y 0).val; omega
theorem wt3_read (t : Fin cfg0.N) (X : S128x128.Idx → EReal) : ((cfg0.win 7).blk t).view.read (Elt Ideal) X = X := by
  obtain ⟨-, -, -, -, -, -, -, ⟨e0, e1⟩, -⟩ := idx_facts t
  funext y
  show X (((cfg0.win 7).blk t).view.emb y) = X y
  refine congrArg X (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega
theorem bs3_read (t : Fin cfg0.N) (X : S128.Idx → EReal) : ((cfg0.win 8).blk t).view.read (Elt Ideal) X = X := by
  obtain ⟨-, -, -, -, -, -, -, -, e0, -⟩ := idx_facts t
  funext y
  show X (((cfg0.win 8).blk t).view.emb y) = X y
  refine congrArg X (funext fun a => Fin.ext ?_)
  match a with
  | ⟨0, _⟩ => show win0_8.index t (0 : Fin 1) * 128 + 1 * (y 0).val = (y 0).val; omega

/-! ## The blocks a point is handed, read off the arrays the region finds -/

theorem xb1_apply (c : Dev nD) (t : Fin cfg0.N) (p : Fin 4000) (k : Fin 128) : xb1 m c t (ix2 p k) = agg1 m c (ix2 (row t p) k) :=
  rows1_read t (agg1 m c) p k
theorem xb2_apply (c : Dev nD) (t : Fin cfg0.N) (p : Fin 4000) (k : Fin 128) : xb2 m c t (ix2 p k) = agg2 m c (ix2 (row t p) k) :=
  rows2_read t (agg2 m c) p k
theorem xb3_apply (c : Dev nD) (t : Fin cfg0.N) (p : Fin 4000) (k : Fin 128) : xb3 m c t (ix2 p k) = agg3 m c (ix2 (row t p) k) :=
  rows3_read t (agg3 m c) p k
theorem wb1_eq (c : Dev nD) (t : Fin cfg0.N) : wb1 m c t = wt1 m c := wt1_read t (wt1 m c)
theorem bb1_eq (c : Dev nD) (t : Fin cfg0.N) : bb1 m c t = bs1 m c := bs1_read t (bs1 m c)
theorem wb2_eq (c : Dev nD) (t : Fin cfg0.N) : wb2 m c t = wt2 m c := wt2_read t (wt2 m c)
theorem bb2_eq (c : Dev nD) (t : Fin cfg0.N) : bb2 m c t = bs2 m c := bs2_read t (bs2 m c)
theorem wb3_eq (c : Dev nD) (t : Fin cfg0.N) : wb3 m c t = wt3 m c := wt3_read t (wt3 m c)
theorem bb3_eq (c : Dev nD) (t : Fin cfg0.N) : bb3 m c t = bs3 m c := bs3_read t (bs3 m c)

/-- The output block's row `p`, column `q` at point `t` is row `4000·t + p`, column `q` of the array. -/
theorem emb9 (t : Fin cfg0.N) (p : Fin 4000) (q : Fin 128) : ((cfg0.win 9).blk t).view.emb (ix2 p q) = ix2 (row t p) q := by
  obtain ⟨-, -, -, -, -, -, -, -, -, ⟨e0, e1⟩⟩ := idx_facts t
  refine funext fun a => Fin.ext ?_
  match a with
  | ⟨0, _⟩ => show win0_9.index t (0 : Fin 2) * 4000 + 1 * p.val = 4000 * t.val + p.val; omega
  | ⟨1, _⟩ => show win0_9.index t (1 : Fin 2) * 128 + 1 * q.val = q.val; omega

/-! ## What a point writes back -/

/-- The body's value at row `p`, column `q` of a block is the fused function at row `r`, column `q` of nine arrays, as soon
    as row `p` of each row block is row `r` of its array and the weight and bias blocks are their arrays: the body's value is
    the sum of the three layers of the blocks, and a layer depends on its row array through the one row. -/
theorem fused_of_blocks (x1 x2 x3 : Vec Ideal S4000x128 .f32) (w1 w2 w3 W1 W2 W3 : Vec Ideal S128x128 .f32)
    (b1 b2 b3 B1 B2 B3 : Vec Ideal S128 .f32) (A1 A2 A3 : Vec Ideal S100000x128 .f32) (p : Fin 4000) (r : Fin 100000) (q : Fin 128)
    (h1 : ∀ k : Fin 128, x1 (ix2 p k) = A1 (ix2 r k)) (h2 : ∀ k : Fin 128, x2 (ix2 p k) = A2 (ix2 r k))
    (h3 : ∀ k : Fin 128, x3 (ix2 p k) = A3 (ix2 r k)) (hw1 : w1 = W1) (hb1 : b1 = B1) (hw2 : w2 = W2) (hb2 : b2 = B2)
    (hw3 : w3 = W3) (hb3 : b3 = B3) :
    Gen.k0_pay1 (F := Ideal) x1 w1 b1 x2 w2 b2 x3 w3 b3 (ix2 p q)
      = Cert.Spec.fused (n := 100000) A1 W1 B1 A2 W2 B2 A3 W3 B3 (ix2 r q) := by
  rw [Block.pay_apply, Cert.Spec.layer_congr x1 A1 w1 W1 b1 B1 p r q h1 hw1 hb1,
    Cert.Spec.layer_congr x2 A2 w2 W2 b2 B2 p r q h2 hw2 hb2, Cert.Spec.layer_congr x3 A3 w3 W3 b3 B3 p r q h3 hw3 hb3]
  rfl

/-- What the body leaves of nine blocks, read through the output window at point `t`, is block `t` of any array `G` that
    holds, at row `4000·t + p` and column `q`, the body's value at row `p`, column `q`. -/
theorem flushed_core (t : Fin cfg0.N) (x1 x2 x3 : Vec Ideal S4000x128 .f32) (w1 : Vec Ideal S128x128 .f32) (b1 : Vec Ideal S128 .f32)
    (w2 : Vec Ideal S128x128 .f32) (b2 : Vec Ideal S128 .f32) (w3 : Vec Ideal S128x128 .f32) (b3 : Vec Ideal S128 .f32)
    (G : S100000x128.Idx → EReal)
    (hG : ∀ (p : Fin 4000) (q : Fin 128), Gen.k0_pay1 (F := Ideal) x1 w1 b1 x2 w2 b2 x3 w3 b3 (ix2 p q) = G (ix2 (row t p) q)) :
    (cfg0.win 9).cut (grid0.coords t) (out0_9 x1 x2 x3 w1 b1 w2 b2 w3 b3) = ((cfg0.win 9).blk t).view.read (Elt Ideal) G := by
  unfold out0_9
  rw [View.canon_unit_zero off2]
  simp only [View.ld_unit_zero (S := S4000x128) off2, View.ld_unit_zero (S := S128x128) off2, View.ld_unit_zero (S := S128) off1]
  funext j
  obtain ⟨p, q, rfl⟩ : ∃ (p : Fin 4000) (q : Fin 128), j = ix2 p q := ⟨j 0, j 1, eq_ix2 j⟩
  show Gen.k0_pay1 (F := Ideal) x1 w1 b1 x2 w2 b2 x3 w3 b3 (ix2 p q) = G (((cfg0.win 9).blk t).view.emb (ix2 p q))
  rw [emb9]
  exact hG p q

/-- Point `t` writes back block `t` of the fused function of the arrays the region finds. -/
theorem flushed_eq (c : Dev nD) (t : Fin cfg0.N) :
    (dats m 0 c).flushed 9 t = ((cfg0.win 9).blk t).view.read (Elt Ideal) (whole m c) := by
  rw [Value.flushed9]
  exact flushed_core t (xb1 m c t) (xb2 m c t) (xb3 m c t) (wb1 m c t) (bb1 m c t) (wb2 m c t) (bb2 m c t) (wb3 m c t) (bb3 m c t)
    (whole m c) fun p q =>
      fused_of_blocks (xb1 m c t) (xb2 m c t) (xb3 m c t) (wb1 m c t) (wb2 m c t) (wb3 m c t) (wt1 m c) (wt2 m c) (wt3 m c)
        (bb1 m c t) (bb2 m c t) (bb3 m c t) (bs1 m c) (bs2 m c) (bs3 m c) (agg1 m c) (agg2 m c) (agg3 m c) p (row t p) q
        (xb1_apply m c t p) (xb2_apply m c t p) (xb3_apply m c t p) (wb1_eq m c t) (bb1_eq m c t) (wb2_eq m c t) (bb2_eq m c t)
        (wb3_eq m c t) (bb3_eq m c t)

/-! ## The blocks cover the array -/

/-- An index of the array is in point `t`'s block iff each coordinate is in the block's range on its axis. -/
theorem mem_blk (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v12).slice (win0_9.rect t)).set ↔ _
  rw [View.set_slice_whole, Rect.mem_set_unit]
  exact Iff.rfl

/-- Row `r` lies in the block of point `r / 4000`. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 4000, by rw [show cfg0.N = 25 from N_0]; omega⟩
  have ht : t.val = (i 0).val / 4000 := rfl
  obtain ⟨-, -, -, -, -, -, -, -, -, ⟨e0, e1⟩⟩ := idx_facts t
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-! ## The array after the run, and the run -/

/-- After the run the result array is the fused function of the arrays the region finds. -/
theorem final (c : Dev nD) : (dats m 0 c).arrAt 9 cfg0.N = whole m c :=
  (dats m 0 c).arrAt_eq_of_cover 9 (whole m c) (fun t _ => flushed_eq m c t) cover

/-- The kernel's run, with the result array named: every weakly fair execution terminates with the result at the fused
    function and the arguments unchanged. -/
theorem run : θ_run defs (onTc (τ := τ) (main (F := Ideal))) ⟨m, fun _ => 0, ρ⟩ fun r => ∀ c : Dev nD,
      r.2.mem ((c : Thread nD τ).loc main_v12) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.Whole

end
-- ==== Proof.RefFused.lean ====
/-
  The reference, stage by stage, is the fused function of its own aggregated arrays.

  For each relation the reference gathers and scatter-adds the source features into an aggregated [100000 × 128]
  array (left unopened here: it is the same operation, on the same operands, in both programs), multiplies it by the
  weights with a `dot_general` contracting the feature axis, adds the bias broadcast along the rows and takes the maximum
  with zero; the three results are added, the first two first.  Read at an index: the `dot_general` is the sum over
  the contracted coordinate, the two broadcasts of the bias read it at the column, and the rectifier's zero is the
  broadcast constant.
-/
import proofs.«430816_j9457517986563_1_alg».proof.Proof.Gen.ReferenceIdeal.Read
import proofs.«430816_j9457517986563_1_alg».proof.Proof.Spec

noncomputable section

namespace Cert.ReferenceIdeal.Fused

open Cert.ReferenceIdeal Cert.ReferenceIdeal.Read Idealize.ShloMosaic Idealize.ShloMosaic.ValueIdx

/-- Relation 1: the host's product of the aggregated array with the weights, plus the bias broadcast along the rows,
    rectified, is the layer at each index. -/
theorem layer1 (h : (⟨S11000x128, .f32⟩ : BufTy).Contents (Elt Ideal)) (s d : (⟨S500000, .i32⟩ : BufTy).Contents (Elt Ideal)) (W : (⟨S128x128, .f32⟩ : BufTy).Contents (Elt Ideal)) (b : (⟨S128, .f32⟩ : BufTy).Contents (Elt Ideal)) (i : S100000x128.Idx) :
    val_main_v14 (F := Ideal) h s d W b i = Cert.Spec.layer (val_main_v9 (F := Ideal) h s d) W b (i 0) (i 1) := by
  have el : ∀ k, lidx_main_v10 i k = ix2 (i 0) k := fun k => funext fun a => Fin.ext (by
    match a with | ⟨0, _⟩ => rfl | ⟨1, _⟩ => rfl)
  have er : ∀ k, ridx_main_v10 i k = ix2 k (i 1) := fun k => funext fun a => Fin.ext (by
    match a with | ⟨0, _⟩ => rfl | ⟨1, _⟩ => rfl)
  have eb : idx_main_v11 (idx_main_v12 i) = ix1 (i 1) := funext fun a => Fin.ext (by
    match a with | ⟨0, _⟩ => rfl)
  rw [val_main_v14_apply, val_main_v13_apply, val_main_v10_apply, val_main_v12_apply, val_main_v11_apply, val_main_call0_v0_apply, val_main_call0_cst_apply]
  simp only [el, er, eb, Ideal.addf_def, Ideal.maximumf_def, Ideal.ofBits_def]
  rfl

/-- Relation 2: the host's product of the aggregated array with the weights, plus the bias broadcast along the rows,
    rectified, is the layer at each index. -/
theorem layer2 (h : (⟨S30000x128, .f32⟩ : BufTy).Contents (Elt Ideal)) (s d : (⟨S500000, .i32⟩ : BufTy).Contents (Elt Ideal)) (W : (⟨S128x128, .f32⟩ : BufTy).Contents (Elt Ideal)) (b : (⟨S128, .f32⟩ : BufTy).Contents (Elt Ideal)) (i : S100000x128.Idx) :
    val_main_v29 (F := Ideal) h s d W b i = Cert.Spec.layer (val_main_v24 (F := Ideal) h s d) W b (i 0) (i 1) := by
  have el : ∀ k, lidx_main_v25 i k = ix2 (i 0) k := fun k => funext fun a => Fin.ext (by
    match a with | ⟨0, _⟩ => rfl | ⟨1, _⟩ => rfl)
  have er : ∀ k, ridx_main_v25 i k = ix2 k (i 1) := fun k => funext fun a => Fin.ext (by
    match a with | ⟨0, _⟩ => rfl | ⟨1, _⟩ => rfl)
  have eb : idx_main_v26 (idx_main_v27 i) = ix1 (i 1) := funext fun a => Fin.ext (by
    match a with | ⟨0, _⟩ => rfl)
  rw [val_main_v29_apply, val_main_v28_apply, val_main_v25_apply, val_main_v27_apply, val_main_v26_apply, val_main_call1_v0_apply, val_main_call1_cst_apply]
  simp only [el, er, eb, Ideal.addf_def, Ideal.maximumf_def, Ideal.ofBits_def]
  rfl

/-- Relation 3: the host's product of the aggregated array with the weights, plus the bias broadcast along the rows,
    rectified, is the layer at each index. -/
theorem layer3 (h : (⟨S4000x128, .f32⟩ : BufTy).Contents (Elt Ideal)) (s d : (⟨S500000, .i32⟩ : BufTy).Contents (Elt Ideal)) (W : (⟨S128x128, .f32⟩ : BufTy).Contents (Elt Ideal)) (b : (⟨S128, .f32⟩ : BufTy).Contents (Elt Ideal)) (i : S100000x128.Idx) :
    val_main_v45 (F := Ideal) h s d W b i = Cert.Spec.layer (val_main_v40 (F := Ideal) h s d) W b (i 0) (i 1) := by
  have el : ∀ k, lidx_main_v41 i k = ix2 (i 0) k := fun k => funext fun a => Fin.ext (by
    match a with | ⟨0, _⟩ => rfl | ⟨1, _⟩ => rfl)
  have er : ∀ k, ridx_main_v41 i k = ix2 k (i 1) := fun k => funext fun a => Fin.ext (by
    match a with | ⟨0, _⟩ => rfl | ⟨1, _⟩ => rfl)
  have eb : idx_main_v42 (idx_main_v43 i) = ix1 (i 1) := funext fun a => Fin.ext (by
    match a with | ⟨0, _⟩ => rfl)
  rw [val_main_v45_apply, val_main_v44_apply, val_main_v41_apply, val_main_v43_apply, val_main_v42_apply, val_main_call2_v0_apply, val_main_call2_cst_apply]
  simp only [el, er, eb, Ideal.addf_def, Ideal.maximumf_def, Ideal.ofBits_def]
  rfl

/-- The reference's result is the fused function of its three aggregated arrays, the weights and the biases. -/
theorem result_eq (h1 : (⟨S11000x128, .f32⟩ : BufTy).Contents (Elt Ideal)) (h2 : (⟨S30000x128, .f32⟩ : BufTy).Contents (Elt Ideal)) (h3 : (⟨S4000x128, .f32⟩ : BufTy).Contents (Elt Ideal)) (s1 d1 s2 d2 s3 d3 : (⟨S500000, .i32⟩ : BufTy).Contents (Elt Ideal))
    (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (W3 : (⟨S128x128, .f32⟩ : BufTy).Contents (Elt Ideal)) (b3 : (⟨S128, .f32⟩ : BufTy).Contents (Elt Ideal)) :
    val_main_v46 (F := Ideal) h1 h2 h3 s1 d1 s2 d2 s3 d3 W1 b1 W2 b2 W3 b3
      = Cert.Spec.fused (val_main_v9 (F := Ideal) h1 s1 d1) W1 b1 (val_main_v24 (F := Ideal) h2 s2 d2) W2 b2
          (val_main_v40 (F := Ideal) h3 s3 d3) W3 b3 := by
  funext i
  rw [val_main_v46_apply, val_main_v30_apply, layer1, layer2, layer3]
  rfl

end Cert.ReferenceIdeal.Fused

end
-- ==== Proof.Bridge.lean ====
/-
  The kernel's result is the reference's function of the kernel's own arguments.

  After the kernel's run the result array is the fused function (three layers, summed) of the three aggregated arrays
  the region finds, the weights and the biases.  Under the precondition every source index lies in `[-n, n)` for its
  table's row count `n`, so each aggregated array is the scatter-add, at the destination indices, of the table's rows
  gathered at the wrapped source indices: the very array the reference forms from the same arguments.  The weights and
  biases reach the region as launched.  So the result is the fused function of the reference's aggregated arrays.
-/
import proofs.«430816_j9457517986563_1_alg».proof.Defs
import proofs.«430816_j9457517986563_1_alg».proof.Proof.Gen.Pre_finite_inputs
import proofs.«430816_j9457517986563_1_alg».proof.Proof.PreRange
import proofs.«430816_j9457517986563_1_alg».proof.Proof.HostSide
import proofs.«430816_j9457517986563_1_alg».proof.Proof.Whole
import proofs.«430816_j9457517986563_1_alg».proof.Proof.RefFused

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)

/-- Under the precondition, the array the kernel's run ends with is the fused function of the arrays the reference
    aggregates from the kernel's arguments, with the kernel's weights and biases. -/
theorem whole_eq (c : Dev Cert.KernelIdeal.nD) (hpre : Cert.Pre_KernelIdeal m) :
    Cert.KernelIdeal.Whole.whole m c
      = Cert.Spec.fused (n := 100000)
          (Cert.ReferenceIdeal.Read.val_main_v9 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
          (m ((c.tc : Thread Cert.KernelIdeal.nD Cert.KernelIdeal.τ).loc Cert.KernelIdeal.main_arg10)) (m ((c.tc : Thread Cert.KernelIdeal.nD Cert.KernelIdeal.τ).loc Cert.KernelIdeal.main_arg11))
          (Cert.ReferenceIdeal.Read.val_main_v24 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (m ((c.tc : Thread Cert.KernelIdeal.nD Cert.KernelIdeal.τ).loc Cert.KernelIdeal.main_arg12)) (m ((c.tc : Thread Cert.KernelIdeal.nD Cert.KernelIdeal.τ).loc Cert.KernelIdeal.main_arg13))
          (Cert.ReferenceIdeal.Read.val_main_v40 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
          (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  obtain ⟨⟨l1, u1⟩, ⟨l2, u2⟩, ⟨l3, u3⟩⟩ := Cert.PreRange.ranges _ _ _ _ _ _ _ _ _ _ _ _ _ _ _ _ (hpre c)
  dsimp only [Cert.KernelIdeal.Whole.whole, Cert.KernelIdeal.Whole.agg1, Cert.KernelIdeal.Whole.agg2, Cert.KernelIdeal.Whole.agg3,
    Cert.KernelIdeal.Whole.wt1, Cert.KernelIdeal.Whole.bs1, Cert.KernelIdeal.Whole.wt2, Cert.KernelIdeal.Whole.bs2,
    Cert.KernelIdeal.Whole.wt3, Cert.KernelIdeal.Whole.bs3]
  rw [Cert.KernelIdeal.HostSide.agg1 m c l1 u1, Cert.KernelIdeal.HostSide.agg2 m c l2 u2, Cert.KernelIdeal.HostSide.agg3 m c l3 u3,
    Cert.KernelIdeal.Gen.V_main_arg10 m c, Cert.KernelIdeal.Gen.V_main_arg11 m c, Cert.KernelIdeal.Gen.V_main_arg12 m c,
    Cert.KernelIdeal.Gen.V_main_arg13 m c, Cert.KernelIdeal.Gen.V_main_arg14 m c, Cert.KernelIdeal.Gen.V_main_arg15 m c]
  rfl

end Cert.Bridge

end
-- ==== Proof.lean ====
/-
  The kernel and the reference compute one function, wherever every source index names a row of its table.

  Both programs handle three relations alike.  The rows of a source table are gathered at the source indices and
  summed into the 100000 destination rows; the aggregated array is multiplied by a 128 × 128 weight matrix, a bias is
  added along the rows, and the result is rectified; the three results are added, the first two first.  The kernel does
  the gather and the sum on the host and the rest inside one launch over 25 blocks of 4000 rows, with the matrix
  product on operands narrowed to bf16; over the extended reals the narrowing changes nothing, a block's product is the
  same sum over the contracted axis as the reference's whole product, and a row of the result depends on the aggregated
  arrays through that row only, so the 25 blocks are the blocks of the reference's result.  No law beyond congruence is
  used, so the finiteness of the float inputs is never opened.

  The two gathers differ off the tables: after wrapping a negative index, the kernel replaces a row whose index is
  still outside the table by a fill value, where the reference's gather moves the index to the nearest row.  The
  precondition says every source index `s` of a table with `n` rows satisfies `-n ≤ s < n`; there the wrapped index is
  a row of the table, the fill is never chosen, and the two gathers agree.

  The frames of the two kernel programs are the generated ones; the reference's frame is its generated run with the
  result dropped; nothing was rewritten when the kernel was idealized, so that claim is trivial.
-/
import proofs.«430816_j9457517986563_1_alg».proof.Defs
import proofs.«430816_j9457517986563_1_alg».proof.Proof.Gen.Kernel
import proofs.«430816_j9457517986563_1_alg».proof.Proof.Gen.Kernel.Skeleton
import proofs.«430816_j9457517986563_1_alg».proof.Proof.Gen.Kernel.Launch
import proofs.«430816_j9457517986563_1_alg».proof.Proof.Gen.Kernel.Points
import proofs.«430816_j9457517986563_1_alg».proof.Proof.Gen.Kernel.Frame
import proofs.«430816_j9457517986563_1_alg».proof.Proof.Gen.KernelIdeal
import proofs.«430816_j9457517986563_1_alg».proof.Proof.Gen.KernelIdeal.Skeleton
import proofs.«430816_j9457517986563_1_alg».proof.Proof.Gen.KernelIdeal.Launch
import proofs.«430816_j9457517986563_1_alg».proof.Proof.Gen.KernelIdeal.Points
import proofs.«430816_j9457517986563_1_alg».proof.Proof.Gen.KernelIdeal.Frame
import proofs.«430816_j9457517986563_1_alg».proof.Proof.Gen.ReferenceIdeal
import proofs.«430816_j9457517986563_1_alg».proof.Proof.Gen.Pre_finite_inputs
import proofs.«430816_j9457517986563_1_alg».proof.Proof.Gen.KernelIdeal.Value
import proofs.«430816_j9457517986563_1_alg».proof.Proof.Gen.ReferenceIdeal.Run
import proofs.«430816_j9457517986563_1_alg».proof.Proof.Gen.ReferenceIdeal.Read
import Idealize.ShloMosaic.Adequacy
import Idealize.ShloMosaic.Init
import proofs.«430816_j9457517986563_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's result at the fused function of the arrays the region finds and the reference's at the
    fused function of the arrays it aggregates; from arguments that agree and satisfy the precondition these are one array. -/
theorem algebraic : Cert.algebraic_KernelIdeal_ReferenceIdeal := by
  intro m ρ m' ρ' hpre hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨-, a1, a2, a3, a4, a5, a6, a7, a8, a9, a10, a11, a12, a13, a14, a15⟩ := hagree c
  rw [Cert.ReferenceIdeal.Read.val_main_v46_eq, Cert.ReferenceIdeal.Fused.result_eq, a1, a2, a3, a4, a5, a6, a7, a8, a9, a10,
    a11, a12, a13, a14, a15]
  exact (Cert.Bridge.whole_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
